-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000 : Shape := ⟨1, ![600000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S600000 : S_.BroadcastsInDim S600000 (![] : Fin 0 → Fin S600000.rank)
  reducesTo_S600000_S_d0 : S600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S600000 32) (main_arg1 : IVec S600000 32) (main_arg2 : FVec F S600000 .f32) (main_arg3 : FVec F S100000x128 .f32) (main_arg4 : FVec F S128x128 .f32) (main_arg5 : FVec F S128 .f32) (main_arg6 : FVec F S128x128 .f32) (main_arg7 : FVec F S128 .f32) : IVec S_ 1 :=
  let main_v0 : FVec F S600000 .f32 := Host.absf main_arg2
  let main_cst : FVec F S_ .f32 := constant S_ .f32 0x7F800000#32
  let main_v1 : FVec F S600000 .f32 := broadcastInDim S600000 ![] bcast_S_S600000 main_cst
  let main_v2 : IVec S600000 1 := cmpf .olt main_v0 main_v1
  let main_c : IVec S_ 1 := constantI S_ 1 1#1
  let main_v3 : IVec S_ 1 := (fun x v => Host.reduce IntOp.andi x v reducesTo_S600000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S600000 : Shape := ⟨1, ![600000]⟩
abbrev S100000x128 : Shape := ⟨2, ![100000, 128]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S10000x128 : Shape := ⟨2, ![10000, 128]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S600000, .i32⟩
  | .hbm, ⟨1, _⟩ => ⟨S600000, .i32⟩
  | .hbm, ⟨2, _⟩ => ⟨S600000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S600000x1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | _, _ => ⟨S600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg3) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S600000 : Shape := ⟨1, ![600000]⟩
abbrev S100000x128 : Shape := ⟨2, ![100000, 128]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S600000, .i32⟩
  | .hbm, ⟨1, _⟩ => ⟨S600000, .i32⟩
  | .hbm, ⟨2, _⟩ => ⟨S600000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S600000x1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | _, _ => ⟨S600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.Fused.lean ====
/-
  THE FUSED PAIR OF AFFINE LAYERS, entry by entry, at the extended reals.

  For a feature matrix `feat` and an aggregated matrix `x` of the same shape [M, 128], two weight matrices
  [128, 128] and two bias vectors [128], the result at row r, column c is

      (∑ k, (feat (r, k) + x (r, k)) * W1 (k, c)) + b1 c  +  ((∑ k, (x (r, k) * feat (r, k)) * W2 (k, c)) + b2 c).

  Each summand is an affine layer (a row against a column of the weights, plus the bias entry of that column) of an
  entrywise combination of `feat` and `x`: their sum in the first, their product in the second. Nothing here needs
  the entries to be finite: no sum is rearranged and no factor is moved across a sum.

  * `fused`: the function above, over the affine layer of the dense-layer library;
  * `fused_congr`: an entry only looks at row r of `feat` and `x`, so a block of consecutive rows of the two
    matrices gives, at a block row, the entry of the whole matrices at the corresponding row;
  * `matmul_plain_apply`: a block product into a zero accumulator read at an entry, whatever float formats its
    operands carry (a change of float format is the identity at the extended reals);
  * `affine_vec`: such a block product plus a bias vector made a row and repeated down the block is the affine layer.
-/
import proofs.«168758_j17626545783660_1_alg».proof.Proof.LibDense
import Idealize.ShloMosaic.Lib.ValueLayout

noncomputable section
namespace Cert.Fused
open Idealize.ShloMosaic
open Idealize.ShloMosaic.ValueIdx
open Cert.Lib.Dense

/-- The two affine layers of `feat + x` and of `x * feat`, added entry by entry. -/
def fused {M : Nat} (feat x : (⟨2, ![M, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![M, 128]⟩ : Shape).Idx → EReal :=
  fun j => affine (fun i => feat i + x i) W1 (biasRow b1) j + affine (fun i => x i * feat i) W2 (biasRow b2) j

/-- An entry of `fused` reads `feat` and `x` only along its own row, and the weights and biases whole: if a block's row
    `y 0` holds what the whole matrices hold at row `i 0`, the columns agree, and the weights and biases are the same,
    the block's entry at `y` is the whole matrices' entry at `i`. -/
theorem fused_congr {Mb M : Nat} (fb xb : (⟨2, ![Mb, 128]⟩ : Shape).Idx → EReal) (feat x : (⟨2, ![M, 128]⟩ : Shape).Idx → EReal)
    (w1 W1 : (⟨2, ![128, 128]⟩ : Shape).Idx → EReal) (c1 B1 : (⟨1, ![128]⟩ : Shape).Idx → EReal)
    (w2 W2 : (⟨2, ![128, 128]⟩ : Shape).Idx → EReal) (c2 B2 : (⟨1, ![128]⟩ : Shape).Idx → EReal)
    (y : (⟨2, ![Mb, 128]⟩ : Shape).Idx) (i : (⟨2, ![M, 128]⟩ : Shape).Idx)
    (hf : ∀ k : Fin 128, fb (ix2 (y 0) k) = feat (ix2 (i 0) k)) (hx : ∀ k : Fin 128, xb (ix2 (y 0) k) = x (ix2 (i 0) k))
    (hw1 : w1 = W1) (hb1 : c1 = B1) (hw2 : w2 = W2) (hb2 : c2 = B2)
    (hc : y 1 = i 1) : fused fb xb w1 c1 w2 c2 y = fused feat x W1 B1 W2 B2 i := by
  subst hw1 hb1 hw2 hb2
  unfold fused
  rw [affine_congr (fun i => fb i + xb i) (fun i => feat i + x i) w1 w1 (biasRow c1) (biasRow c1) y i
      (fun k => by show fb _ + xb _ = feat _ + x _; rw [hf k, hx k]) (fun k => by rw [hc]) (by rw [hc]),
    affine_congr (fun i => xb i * fb i) (fun i => x i * feat i) w2 w2 (biasRow c2) (biasRow c2) y i
      (fun k => by show xb _ * fb _ = x _ * feat _; rw [hf k, hx k]) (fun k => by rw [hc]) (by rw [hc])]

/-- A row-major block product into a zero accumulator, at an entry: row `j 0` of the left operand against column `j 1` of
    the right one, whatever float formats the operands carry. -/
theorem matmul_plain_apply {φ₁ φ₂ : FTy} (M K N : Nat) (prec : Option ContractPrecision)
    (X : FVec Ideal ⟨2, ![M, K]⟩ φ₁) (W : FVec Ideal ⟨2, ![K, N]⟩ φ₂) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- A block product into a zero accumulator plus a bias vector, made a row and repeated down the block, is the affine
    layer of the two operands over that bias row. -/
theorem affine_vec {φ₁ φ₂ : FTy} (M : Nat) (a : FVec Ideal ⟨2, ![M, 128]⟩ φ₁) (w : FVec Ideal ⟨2, ![128, 128]⟩ φ₂)
    (b : FVec Ideal ⟨1, ![128]⟩ .f32) (sc : (⟨1, ![128]⟩ : Shape).ShapeCasts ⟨2, ![1, 128]⟩)
    (bt : (⟨2, ![1, 128]⟩ : Shape).Broadcasts ⟨2, ![M, 128]⟩) (y : (⟨2, ![M, 128]⟩ : Shape).Idx) :
    addf (matmul (DotDims.plain M 128 128) none a w (constant ⟨2, ![M, 128]⟩ .f32 0x00000000#32))
        (broadcastTo ⟨2, ![M, 128]⟩ (shapeCast ⟨2, ![1, 128]⟩ b sc) bt) y = affine (K := 128) a w (biasRow b) y := by
  rw [shapeCast_row]
  show FloatOps.matmul (DotDims.plain M 128 128) none a w (constant _ .f32 0x00000000#32) y
      + broadcastTo ⟨2, ![M, 128]⟩ (biasRow b) bt y = _
  rw [matmul_plain_apply]
  obtain ⟨p, q, rfl⟩ : ∃ (p : Fin M) (q : Fin 128), y = ix2 p q := ⟨y 0, y 1, eq_ix2 y⟩
  rw [broadcastTo_1b_ab_apply]
  rfl

/-- The same as an equation between the two arrays. -/
theorem affine_vec_fun {φ₁ φ₂ : FTy} (M : Nat) (a : FVec Ideal ⟨2, ![M, 128]⟩ φ₁) (w : FVec Ideal ⟨2, ![128, 128]⟩ φ₂)
    (b : FVec Ideal ⟨1, ![128]⟩ .f32) (sc : (⟨1, ![128]⟩ : Shape).ShapeCasts ⟨2, ![1, 128]⟩)
    (bt : (⟨2, ![1, 128]⟩ : Shape).Broadcasts ⟨2, ![M, 128]⟩) :
    addf (matmul (DotDims.plain M 128 128) none a w (constant ⟨2, ![M, 128]⟩ .f32 0x00000000#32))
        (broadcastTo ⟨2, ![M, 128]⟩ (shapeCast ⟨2, ![1, 128]⟩ b sc) bt) = affine (K := 128) a w (biasRow b) :=
  funext fun y => affine_vec M a w b sc bt y

end Cert.Fused
-- ==== Proof.Payload.lean ====
/-
  THE KERNEL BODY'S VALUE on one block of rows. The body loads a block of 10000 rows of the feature matrix and of the
  aggregated matrix, both weight matrices and both bias vectors whole; it forms the entrywise sum and product of the
  two row blocks, multiplies each by its weight matrix into a zero accumulator, adds the bias vector repeated down
  the block, and adds the two results. The narrowing of the products' operands to a shorter float format is the
  identity at the extended reals, so the value is the fused pair of affine layers of the two row blocks.
-/
import proofs.«168758_j17626545783660_1_alg».proof.Proof.Gen.KernelIdeal.Skeleton
import proofs.«168758_j17626545783660_1_alg».proof.Proof.Fused

noncomputable section
namespace Cert.KernelIdeal.Pay
open Cert.KernelIdeal Cert.KernelIdeal.Gen Idealize.ShloMosaic Cert.Fused Cert.Lib.Dense

/-- The body's product is the row-major one: rows against columns, one contracted axis, no batch axis. -/
theorem dot_plain : dot_S10000x128_S128x128_S10000x128_1_0_0_1_n_n = DotDims.plain 10000 128 128 := rfl

/-- What the body stores, as a function of the blocks it loads. -/
theorem pay_eq (v0 v1 : Vec Ideal S10000x128 .f32) (v3 v5 : Vec Ideal S128x128 .f32) (v7 v8 : Vec Ideal S128 .f32) :
    k0_pay1 (F := Ideal) v0 v1 v3 v5 v7 v8 = fused (M := 10000) v0 v1 v3 v7 v5 v8 := by
  unfold k0_pay1
  simp only [shapeCast_self, dot_plain]
  rw [affine_vec_fun, affine_vec_fun]
  rfl

end Cert.KernelIdeal.Pay
-- ==== Proof.Agg.lean ====
/-
  THE AGGREGATED MATRIX, as the kernel's program computes it before its one region.

  For edge lists `rows`, `cols` (integers) and `vals` (floats) of length 600000 and a feature matrix [100000, 128]:
  a negative column index is wrapped once by the number of rows, the feature rows at the column indices are gathered,
  each gathered row is scaled by its edge's value, and the scaled rows are added into a zero matrix at the row
  indices. The region's second window reads this matrix; nothing below looks inside the gather or the scatter.
-/
import proofs.«168758_j17626545783660_1_alg».proof.Proof.Gen.KernelIdeal.Frame
import Idealize.ShloMosaic.Lib.StableHlo.Run

noncomputable section
namespace Cert.KernelIdeal.Agg
open Cert.KernelIdeal Cert.KernelIdeal.Gen Idealize.ShloMosaic Idealize.ShloMosaic.TcCoe Idealize.SL.Sem Idealize.ShloMosaic.StableHlo

variable {F : FTy → Type} [FloatOps F]

/-- The scatter-add, at the row indices, of the gathered feature rows scaled by the edge values. -/
def agg (rows cols : (⟨S600000, .i32⟩ : BufTy).Contents (Elt F)) (vals : (⟨S600000, .f32⟩ : BufTy).Contents (Elt F))
    (feat : (⟨S100000x128, .f32⟩ : BufTy).Contents (Elt F)) : (⟨S100000x128, .f32⟩ : BufTy).Contents (Elt F) :=
  Host.scatterAdd scatter_S100000x128_S600000x1_S600000x128_1_0_0_1
    (broadcastInDim S100000x128 ![] bcast_S_S100000x128 (constant (F := F) S_ .f32 0x00000000#32))
    (broadcastInDim S600000x1 ![0] bcast_S600000_S600000x1_0 rows)
    (mulf (broadcastInDim S600000x128 ![0, 1] bcast_S600000x1_S600000x128_0_1 (broadcastInDim S600000x1 ![0] bcast_S600000_S600000x1_0 vals))
      (Host.gather gather_S100000x128_S600000x1_S600000x128_1_0_n_n_0_1_1128 feat
        (broadcastInDim S600000x1 ![0] bcast_S600000_S600000x1_0
          (select (cmpi .slt cols (broadcastInDim S600000 ![] bcast_S_S600000 (constantI S_ 32 0#32)))
            (addi cols (broadcastInDim S600000 ![] bcast_S_S600000 (constantI S_ 32 100000#32))) cols))))

variable (m : (ℓ : Loc nD τ sig) → Buf (Elt F) ℓ)

/-- When the region is entered, the array its second window reads holds the aggregated matrix of the arguments. -/
theorem V_main_v12 (c : Dev nD) :
    V m c main_v12 = agg (m ((c : Thread nD τ).loc main_arg0)) (m ((c : Thread nD τ).loc main_arg1))
      (m ((c : Thread nD τ).loc main_arg2)) (m ((c : Thread nD τ).loc main_arg3)) := by
  unfold agg
  dsimp only [Gen.V, Gen.hostOps0]
  after_results

end Cert.KernelIdeal.Agg
-- ==== Proof.Blocks.lean ====
/-
  FROM ROW BLOCKS TO THE WHOLE RESULT. The region has ten grid points; point t stages rows 10000 t … 10000 t + 9999 of
  the feature matrix and of the aggregated matrix, both weight matrices and both bias vectors whole, and writes back
  rows 10000 t … 10000 t + 9999 of the result. An entry of the fused pair of affine layers depends only on its own row
  of the two matrices, so what point t writes back is block t of the fused layers of the WHOLE arrays; the ten blocks
  cover every row (row r lies in block r / 10000), so the result array ends holding the fused layers of the whole arrays.
-/
import proofs.«168758_j17626545783660_1_alg».proof.Proof.Gen.KernelIdeal.Value
import proofs.«168758_j17626545783660_1_alg».proof.Proof.Payload
import proofs.«168758_j17626545783660_1_alg».proof.Proof.Agg

noncomputable section
namespace Cert.KernelIdeal.Blocks
open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.Fused

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The result as one function of the arrays the region finds: the fused layers of the feature matrix and the
    aggregated matrix, with the two weight matrices and the two bias vectors. -/
def G (c : Dev nD) : S100000x128.Idx → EReal :=
  fused (M := 100000) (V m c main_arg3) (V m c main_v12) (V m c main_arg4) (V m c main_arg5) (V m c main_arg6) (V m c main_arg7)

/-- The printed index maps over the ten points: the two row-blocked inputs and the output move with the point along
    the rows, the weights and biases stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- A row of the feature block at point `t` is the row of the feature matrix that the output block's row lies on. -/
theorem feat_row (c : Dev nD) (t : Fin cfg0.N) (j : S10000x128.Idx) (k : Fin 128) :
    (iblk m c 0 t : S10000x128.Idx → EReal) (ix2 (j 0) k) = V m c main_arg3 (ix2 ((((cfg0.win 6).blk t).view.emb j) 0) k) := by
  obtain ⟨e00, e01, -, -, -, -, -, -, -, -, e60, -⟩ := idx_facts t
  show V m c main_arg3 (((cfg0.win 0).blk t).view.emb (ix2 (j 0) k)) = _
  refine congrArg (V m c main_arg3) (funext fun a => Fin.ext ?_)
  match a with
  | ⟨0, _⟩ => show win0_0.index t (0 : Fin 2) * 10000 + 1 * (j 0).val = win0_6.index t (0 : Fin 2) * 10000 + 1 * (j 0).val; rw [e00, e60]
  | ⟨1, _⟩ => show win0_0.index t (1 : Fin 2) * 128 + 1 * k.val = k.val; rw [e01]; omega

/-- The same for the aggregated matrix's block. -/
theorem agg_row (c : Dev nD) (t : Fin cfg0.N) (j : S10000x128.Idx) (k : Fin 128) :
    (iblk m c 1 t : S10000x128.Idx → EReal) (ix2 (j 0) k) = V m c main_v12 (ix2 ((((cfg0.win 6).blk t).view.emb j) 0) k) := by
  obtain ⟨-, -, e10, e11, -, -, -, -, -, -, e60, -⟩ := idx_facts t
  show V m c main_v12 (((cfg0.win 1).blk t).view.emb (ix2 (j 0) k)) = _
  refine congrArg (V m c main_v12) (funext fun a => Fin.ext ?_)
  match a with
  | ⟨0, _⟩ => show win0_1.index t (0 : Fin 2) * 10000 + 1 * (j 0).val = win0_6.index t (0 : Fin 2) * 10000 + 1 * (j 0).val; rw [e10, e60]
  | ⟨1, _⟩ => show win0_1.index t (1 : Fin 2) * 128 + 1 * k.val = k.val; rw [e11]; omega

/-- The first weight matrix's one block is the whole matrix. -/
theorem w1_whole (c : Dev nD) (t : Fin cfg0.N) : (iblk m c 2 t : S128x128.Idx → EReal) = V m c main_arg4 := by
  obtain ⟨-, -, -, -, e20, e21, -, -, -, -, -, -⟩ := idx_facts t
  funext y
  show V m c main_arg4 (((cfg0.win 2).blk t).view.emb y) = V m c main_arg4 y
  refine congrArg (V m c main_arg4) (funext fun a => Fin.ext ?_)
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

/-- The first bias vector's one block is the whole vector. -/
theorem b1_whole (c : Dev nD) (t : Fin cfg0.N) : (iblk m c 3 t : S128.Idx → EReal) = V m c main_arg5 := by
  obtain ⟨-, -, -, -, -, -, e30, -, -, -, -, -⟩ := idx_facts t
  funext y
  show V m c main_arg5 (((cfg0.win 3).blk t).view.emb y) = V m c main_arg5 y
  refine congrArg (V m c main_arg5) (funext fun a => Fin.ext ?_)
  match a with
  | ⟨0, _⟩ => show win0_3.index t (0 : Fin 1) * 128 + 1 * (y 0).val = (y 0).val; rw [e30]; omega

/-- The second weight matrix's one block is the whole matrix. -/
theorem w2_whole (c : Dev nD) (t : Fin cfg0.N) : (iblk m c 4 t : S128x128.Idx → EReal) = V m c main_arg6 := by
  obtain ⟨-, -, -, -, -, -, -, e40, e41, -, -, -⟩ := idx_facts t
  funext y
  show V m c main_arg6 (((cfg0.win 4).blk t).view.emb y) = V m c main_arg6 y
  refine congrArg (V m c main_arg6) (funext fun a => Fin.ext ?_)
  match a with
  | ⟨0, _⟩ => show win0_4.index t (0 : Fin 2) * 128 + 1 * (y 0).val = (y 0).val; rw [e40]; omega
  | ⟨1, _⟩ => show win0_4.index t (1 : Fin 2) * 128 + 1 * (y 1).val = (y 1).val; rw [e41]; omega

/-- The second bias vector's one block is the whole vector. -/
theorem b2_whole (c : Dev nD) (t : Fin cfg0.N) : (iblk m c 5 t : S128.Idx → EReal) = V m c main_arg7 := by
  obtain ⟨-, -, -, -, -, -, -, -, -, e50, -, -⟩ := idx_facts t
  funext y
  show V m c main_arg7 (((cfg0.win 5).blk t).view.emb y) = V m c main_arg7 y
  refine congrArg (V m c main_arg7) (funext fun a => Fin.ext ?_)
  match a with
  | ⟨0, _⟩ => show win0_5.index t (0 : Fin 1) * 128 + 1 * (y 0).val = (y 0).val; rw [e50]; omega

/-- The output block's column is the array's column. -/
theorem out_col (t : Fin cfg0.N) (j : S10000x128.Idx) : j 1 = (((cfg0.win 6).blk t).view.emb j) 1 := by
  obtain ⟨-, -, -, -, -, -, -, -, -, -, -, e61⟩ := idx_facts t
  apply Fin.ext
  show (j 1).val = win0_6.index t (1 : Fin 2) * 128 + 1 * (j 1).val
  rw [e61]; omega

/-- What point `t` writes back is block `t` of the fused layers of the whole arrays. -/
theorem flushed_eq (c : Dev nD) (t : Fin cfg0.N) :
    (dats m 0 c).flushed 6 t = ((cfg0.win 6).blk t).view.read (Elt Ideal) (G m c) := by
  rw [flushed6]
  unfold out0_6
  rw [View.canon_unit_zero hz2]
  simp only [View.ld_unit_zero (S := S10000x128) hz2, View.ld_unit_zero (S := S128x128) hz2, View.ld_unit_zero (S := S128) hz1]
  rw [Cert.KernelIdeal.Pay.pay_eq]
  funext j
  show fused (M := 10000) (iblk m c 0 t) (iblk m c 1 t) (iblk m c 2 t) (iblk m c 3 t) (iblk m c 4 t) (iblk m c 5 t) j
      = G m c (((cfg0.win 6).blk t).view.emb j)
  unfold G
  exact fused_congr (Mb := 10000) (M := 100000) (iblk m c 0 t) (iblk m c 1 t) (V m c main_arg3) (V m c main_v12)
    (iblk m c 2 t) (V m c main_arg4) (iblk m c 3 t) (V m c main_arg5) (iblk m c 4 t) (V m c main_arg6) (iblk m c 5 t) (V m c main_arg7)
    j (((cfg0.win 6).blk t).view.emb j) (feat_row m c t j) (agg_row m c t j) (w1_whole m c t) (b1_whole m c t) (w2_whole m c t) (b2_whole m c t)
    (out_col t j)

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v13).slice (win0_6.rect t)).set ↔ _
  rw [View.set_slice_whole, Rect.mem_set_unit]
  exact Iff.rfl

/-- Every row of the result lies in the block of the point numbered row / 10000. -/
theorem cover (i : S100000x128.Idx) : ∃ t : Fin cfg0.N, (cfg0.win 6).flush t = true ∧ i ∈ ((cfg0.win 6).blk t).view.set := by
  have hN : grid0.N = 10 := N_0
  have hi0 : (i 0).val < 100000 := (i 0).isLt
  have hi1 : (i 1).val < 128 := (i 1).isLt
  let t : Fin cfg0.N := ⟨(i 0).val / 10000, by show (i 0).val / 10000 < grid0.N; rw [hN]; omega⟩
  have ht : t.val = (i 0).val / 10000 := rfl
  obtain ⟨-, -, -, -, -, -, -, -, -, -, e60, e61⟩ := idx_facts t
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; rw [e60, ht]; omega
  | ⟨1, _⟩ => show win0_6.index t (1 : Fin 2) * 128 ≤ (i 1).val ∧ (i 1).val < win0_6.index t (1 : Fin 2) * 128 + 128; rw [e61]; omega

/-- The result array after the run is the fused layers of the whole arrays the region finds. -/
theorem final (c : Dev nD) : (dats m 0 c).arrAt 6 cfg0.N = G m c :=
  (dats m 0 c).arrAt_eq_of_cover 6 (G m c) (fun t _ => flushed_eq m c t) cover

/-- The result in terms of the arguments: the arrays the region finds are the arguments as launched, and the
    aggregated matrix of the arguments. -/
theorem G_eq (c : Dev nD) : G m c = fused (M := 100000) (m ((c : Thread nD τ).loc main_arg3))
      (Cert.KernelIdeal.Agg.agg (m ((c : Thread nD τ).loc main_arg0)) (m ((c : Thread nD τ).loc main_arg1))
        (m ((c : Thread nD τ).loc main_arg2)) (m ((c : Thread nD τ).loc main_arg3)))
      (m ((c : Thread nD τ).loc main_arg4)) (m ((c : Thread nD τ).loc main_arg5))
      (m ((c : Thread nD τ).loc main_arg6)) (m ((c : Thread nD τ).loc main_arg7)) := by
  unfold G
  rw [V_main_arg3, V_main_arg4, V_main_arg5, V_main_arg6, V_main_arg7, Cert.KernelIdeal.Agg.V_main_v12]

/-- The kernel's run: every weakly fair execution terminates with the result array at the fused layers of the
    arguments, and the arguments unchanged. -/
theorem run : θ_run defs (onTc (τ := τ) (main (F := Ideal))) ⟨m, fun _ => 0, ρ⟩ fun r => ∀ c : Dev nD,
      r.2.mem ((c : Thread nD τ).loc main_v13) = fused (M := 100000) (m ((c : Thread nD τ).loc main_arg3))
        (Cert.KernelIdeal.Agg.agg (m ((c : Thread nD τ).loc main_arg0)) (m ((c : Thread nD τ).loc main_arg1))
          (m ((c : Thread nD τ).loc main_arg2)) (m ((c : Thread nD τ).loc main_arg3)))
        (m ((c : Thread nD τ).loc main_arg4)) (m ((c : Thread nD τ).loc main_arg5))
        (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (G_eq m c)), (h c).2⟩) (run_blocks m ρ)

end Cert.KernelIdeal.Blocks
-- ==== Proof.RefFused.lean ====
/-
  THE REFERENCE'S RESULT is the fused pair of affine layers of the feature matrix and the aggregated matrix: the
  reference adds and multiplies the two whole matrices entrywise, takes the two dot products with the weight
  matrices, adds each bias vector (made a row, then repeated down the rows), and adds the two results. Its
  aggregated matrix is kept as the one term the program computes; nothing here looks inside it.
-/
import proofs.«168758_j17626545783660_1_alg».proof.Proof.Gen.ReferenceIdeal.Read
import proofs.«168758_j17626545783660_1_alg».proof.Proof.Fused

noncomputable section
namespace Cert.ReferenceIdeal.RefValue
open Cert.ReferenceIdeal Cert.ReferenceIdeal.Gen Cert.ReferenceIdeal.Read Idealize.ShloMosaic Cert.Fused Cert.Lib.Dense

/-- The reference's dot product is the row-major one. -/
theorem dot_plain : dot_S100000x128_S128x128_S100000x128_1_0_0_1_n_n = DotDims.plain 100000 128 128 := rfl

/-- The reference's last stage, as a function of the arguments. -/
theorem result_eq (x0 x1 : (⟨S600000, .i32⟩ : BufTy).Contents (Elt Ideal)) (x2 : (⟨S600000, .f32⟩ : BufTy).Contents (Elt Ideal))
    (x3 : (⟨S100000x128, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v23 (F := Ideal) x0 x1 x2 x3 x4 x5 x6 x7
      = fused (M := 100000) x3 (val_main_v12 (F := Ideal) x0 x1 x2 x3) x4 x5 x6 x7 := by
  unfold val_main_v23 val_main_v17 val_main_v22 val_main_v14 val_main_v19 val_main_v16 val_main_v21 val_main_v15 val_main_v20
    val_main_v13 val_main_v18
  simp only [dot_plain]
  rw [host_affine_row, host_affine_row]
  rfl

end Cert.ReferenceIdeal.RefValue
-- ==== Proof.lean ====
/-
  The kernel against its reference, over the extended reals.

  Both programs first compute the same aggregated matrix x [100000, 128] from the edge lists and the feature matrix
  E: a negative column index wrapped once, the feature rows at the column indices gathered, each scaled by its
  edge's value, and the scaled rows added into a zero matrix at the row indices. They spell it with the same
  operations in the same order, so it is one term and is never opened.

  From x and E both compute, entry by entry at row r and column c,

      (∑ k, (E (r, k) + x (r, k)) * W1 (k, c)) + b1 c  +  ((∑ k, (x (r, k) * E (r, k)) * W2 (k, c)) + b2 c).

  The reference does it on the whole matrices with two dot products. The kernel does it in ten blocks of 10000
  rows, each with two block products into a zero accumulator whose operands it first narrows to a shorter float
  format: at the extended reals the narrowing is the identity, a block product into zero is the same sum over k as
  the dot product, and an entry depends only on its own row of E and x, so the ten blocks are the ten row blocks
  of the whole result and cover it. No sum is rearranged and no factor moved across a sum, so the finiteness of the
  inputs is never used.

  The kernel's run with the result array named is in Proof/Blocks.lean (over Proof/Payload.lean, the body's value on
  one block, and Proof/Agg.lean, the aggregated matrix as the region finds it); the reference's result as the same
  function is Proof/RefFused.lean; the function itself is Proof/Fused.lean, over the affine layer of Proof/LibDense.lean.
  The idealization rewrote no operation of the kernel, so the preservation claim is the trivial one.
-/
import proofs.«168758_j17626545783660_1_alg».proof.Defs
import proofs.«168758_j17626545783660_1_alg».proof.Proof.Gen.Kernel
import proofs.«168758_j17626545783660_1_alg».proof.Proof.Gen.Kernel.Skeleton
import proofs.«168758_j17626545783660_1_alg».proof.Proof.Gen.Kernel.Launch
import proofs.«168758_j17626545783660_1_alg».proof.Proof.Gen.Kernel.Points
import proofs.«168758_j17626545783660_1_alg».proof.Proof.Gen.Kernel.Frame
import proofs.«168758_j17626545783660_1_alg».proof.Proof.Gen.KernelIdeal
import proofs.«168758_j17626545783660_1_alg».proof.Proof.Gen.KernelIdeal.Skeleton
import proofs.«168758_j17626545783660_1_alg».proof.Proof.Gen.KernelIdeal.Launch
import proofs.«168758_j17626545783660_1_alg».proof.Proof.Gen.KernelIdeal.Points
import proofs.«168758_j17626545783660_1_alg».proof.Proof.Gen.KernelIdeal.Frame
import proofs.«168758_j17626545783660_1_alg».proof.Proof.Gen.ReferenceIdeal
import proofs.«168758_j17626545783660_1_alg».proof.Proof.Gen.Pre_finite_inputs
import proofs.«168758_j17626545783660_1_alg».proof.Proof.Gen.KernelIdeal.Value
import proofs.«168758_j17626545783660_1_alg».proof.Proof.Gen.ReferenceIdeal.Run
import proofs.«168758_j17626545783660_1_alg».proof.Proof.Gen.ReferenceIdeal.Read
import proofs.«168758_j17626545783660_1_alg».proof.Proof.Blocks
import proofs.«168758_j17626545783660_1_alg».proof.Proof.RefFused
import Idealize.ShloMosaic.Adequacy
import Idealize.ShloMosaic.Init

noncomputable section

namespace Cert.Proof

open Idealize.ShloMosaic Idealize.SL.Sem

/-- The aggregated matrix is the same term of the edge lists and the feature matrix in both programs: the same
    wrap of the column indices, gather, scaling and scatter-add, over the same shapes. -/
theorem agg_eq (x0 x1 : (⟨Cert.ReferenceIdeal.S600000, .i32⟩ : BufTy).Contents (Elt Ideal))
    (x2 : (⟨Cert.ReferenceIdeal.S600000, .f32⟩ : BufTy).Contents (Elt Ideal))
    (x3 : (⟨Cert.ReferenceIdeal.S100000x128, .f32⟩ : BufTy).Contents (Elt Ideal)) :
    Cert.ReferenceIdeal.Read.val_main_v12 (F := Ideal) x0 x1 x2 x3 = Cert.KernelIdeal.Agg.agg (F := Ideal) x0 x1 x2 x3 := rfl

/-- The kernel as printed runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- From memories that agree on the arguments, the kernel's result array ends at the fused layers of the feature
    matrix and the aggregated matrix of ITS arguments, and the reference's result at the fused layers of ITS
    arguments and ITS aggregated matrix: the same function of equal arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v23_eq, Cert.ReferenceIdeal.RefValue.result_eq, agg_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
